-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 66
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S64x64, .bf16⟩
  | .hbm, ⟨15, _⟩ => ⟨S64x64, .bf16⟩
  | .hbm, ⟨16, _⟩ => ⟨S64x64, .bf16⟩
  | .hbm, ⟨17, _⟩ => ⟨S64x64, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S50000x64, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S1x64, .f32⟩
  | .hbm, ⟨65, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .bf16⟩
  | .local _ .vmem, ⟨7, _⟩ => ⟨S64x64, .bf16⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .bf16⟩
  | .local _ .vmem, ⟨18, _⟩ => ⟨S64x64, .bf16⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bitsLt_bf16_f32 : FTy.bits .bf16 < FTy.bits .f32
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v19) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.SageDense.lean ====
/-
  One layer of a mean-aggregating graph convolution, after the neighbour sums have been taken, as a function on
  the extended reals, index by index. Given the summed features  s  (a node's own row included), the node
  features  x , the neighbour counts  d  (the node itself counted), two weight matrices and a bias, entry (r, j) is

      max ( Σ_k (s r k / d r) · Wl k j  +  Σ_k x r k · Wr k j  +  b j ) 0 .

  Written over plain coordinates, so that a block of rows and the whole array are the same function of their
  rows (`dense_row`), and read off the two spellings a program gives it: the vector dialect's (two matrix-unit
  products into zero accumulators, the count column spread along the rows, the bias row spread down them) and
  the host's (two `dot_general`s, the bias added between them: the sums differ only in the order of their
  three terms, and addition on the extended reals is commutative and associative).
-/
import proofs.«421002_j14946486190200_3_alg».proof.Proof.LibMlp
import proofs.«421002_j14946486190200_3_alg».proof.Proof.LibColumn

noncomputable section

open Idealize.ShloMosaic Idealize.ShloMosaic.ValueIdx

namespace Cert.Sage

open Cert.Mlp

/-- The layer at entry `i = (r, j)`. -/
def dense {N K H : ℕ} (s x : (⟨2, ![N, K]⟩ : Shape).Idx → EReal) (d : Fin N → EReal)
    (Wl Wr : (⟨2, ![K, H]⟩ : Shape).Idx → EReal) (b : Fin H → EReal) : (⟨2, ![N, H]⟩ : Shape).Idx → EReal := fun i =>
  max (((∑ k : Fin K, Ideal.div (s (ix2 (i 0) k)) (d (i 0)) * Wl (ix2 k (i 1)))
      + ∑ k : Fin K, x (ix2 (i 0) k) * Wr (ix2 k (i 1))) + b (i 1)) zero

/-- The first column of an `[N, 1]` array as a vector of its entries. -/
def col {N : ℕ} (y : (⟨2, ![N, 1]⟩ : Shape).Idx → EReal) : Fin N → EReal := fun p => y (ix2 p (0 : Fin 1))

/-- A vector reshaped to one column and read back as a vector is the vector. -/
theorem col_shapeCast {N : ℕ} (y : (⟨1, ![N]⟩ : Shape).Idx → EReal) (h : (⟨1, ![N]⟩ : Shape).ShapeCasts ⟨2, ![N, 1]⟩) :
    col (shapeCast (⟨2, ![N, 1]⟩ : Shape) y h) = vec y := by
  funext p
  exact Cert.Attn.Column.shapeCast_a_a1_apply y h p 0

/-- The layer reads only the row it is asked for: inputs that agree on a row give the same row. -/
theorem dense_row {N N' K H : ℕ} (s x : (⟨2, ![N, K]⟩ : Shape).Idx → EReal) (s' x' : (⟨2, ![N', K]⟩ : Shape).Idx → EReal)
    (d : Fin N → EReal) (d' : Fin N' → EReal) (Wl Wr : (⟨2, ![K, H]⟩ : Shape).Idx → EReal) (b : Fin H → EReal)
    (r : Fin N) (r' : Fin N') (j : Fin H)
    (hs : ∀ k : Fin K, s (ix2 r k) = s' (ix2 r' k)) (hx : ∀ k : Fin K, x (ix2 r k) = x' (ix2 r' k)) (hd : d r = d' r') :
    dense s x d Wl Wr b (ix2 r j) = dense s' x' d' Wl Wr b (ix2 r' j) := by
  show max (((∑ k : Fin K, Ideal.div (s (ix2 r k)) (d r) * Wl (ix2 k j)) + ∑ k : Fin K, x (ix2 r k) * Wr (ix2 k j)) + b j) zero
     = max (((∑ k : Fin K, Ideal.div (s' (ix2 r' k)) (d' r') * Wl (ix2 k j)) + ∑ k : Fin K, x' (ix2 r' k) * Wr (ix2 k j)) + b j) zero
  have e1 : (∑ k : Fin K, Ideal.div (s (ix2 r k)) (d r) * Wl (ix2 k j)) = ∑ k : Fin K, Ideal.div (s' (ix2 r' k)) (d' r') * Wl (ix2 k j) :=
    Finset.sum_congr rfl fun k _ => by rw [hs k, hd]
  have e2 : (∑ k : Fin K, x (ix2 r k) * Wr (ix2 k j)) = ∑ k : Fin K, x' (ix2 r' k) * Wr (ix2 k j) :=
    Finset.sum_congr rfl fun k _ => by rw [hx k]
  rw [e1, e2]

/-! ## The vector dialect's spelling -/

/-- A matrix-unit product into a zero accumulator, read at (p, q), is the row-by-column sum. -/
theorem matmul_zero_at {N K H : ℕ} {φa φw : FTy} (a : FVec Ideal ⟨2, ![N, K]⟩ φa) (W : FVec Ideal ⟨2, ![K, H]⟩ φw)
    (p : Fin N) (q : Fin H) :
    matmul (DotDims.plain N K H) none a W (constant ⟨2, ![N, H]⟩ .f32 0x00000000#32) (ix2 p q)
      = ∑ k : Fin K, a (ix2 p k) * W (ix2 k q) :=
  (Ideal.matmul_constant_zero_apply (DotDims.plain N K H) none a W (ix2 p q)).trans (plain_sum a W (ix2 p q))

/-- The kernel body's arithmetic on one block of rows: quotient by the spread count column, both products, their
    sum, the bias row, the floor at zero. Narrowing a value's format is the identity on the extended reals. -/
theorem vec_dense {N K H : ℕ} (dd : DotDims ⟨2, ![N, K]⟩ ⟨2, ![K, H]⟩ ⟨2, ![N, H]⟩) (hdd : dd = DotDims.plain N K H)
    (hc : (⟨2, ![N, 1]⟩ : Shape).Broadcasts ⟨2, ![N, K]⟩) (hb : (⟨2, ![1, H]⟩ : Shape).Broadcasts ⟨2, ![N, H]⟩)
    (ht : FTy.bf16.bits < FTy.f32.bits)
    (s x : FVec Ideal ⟨2, ![N, K]⟩ .f32) (dc : FVec Ideal ⟨2, ![N, 1]⟩ .f32) (Wl Wr : FVec Ideal ⟨2, ![K, H]⟩ .bf16)
    (b : FVec Ideal ⟨2, ![1, H]⟩ .f32) :
    maximumf (addf (addf (matmul dd none (truncf .bf16 (divf s (broadcastTo ⟨2, ![N, K]⟩ dc hc)) ht) Wl (constant ⟨2, ![N, H]⟩ .f32 0x00000000#32))
        (matmul dd none (truncf .bf16 x ht) Wr (constant ⟨2, ![N, H]⟩ .f32 0x00000000#32)))
        (broadcastTo ⟨2, ![N, H]⟩ b hb)) (broadcast ⟨2, ![N, H]⟩ (Scalar.ofBits .f32 0x00000000#32))
      = dense s x (col dc) Wl Wr (row b) := by
  subst hdd
  funext i
  obtain ⟨p, q, rfl⟩ : ∃ (p : Fin N) (q : Fin H), i = ix2 p q := ⟨i 0, i 1, eq_ix2 i⟩
  rw [maximumf_apply, addf_apply, addf_apply, matmul_zero_at, matmul_zero_at, bcast_row hb b p q]
  have e1 : (∑ k : Fin K, (truncf .bf16 (divf s (broadcastTo ⟨2, ![N, K]⟩ dc hc)) ht : FVec Ideal ⟨2, ![N, K]⟩ .bf16) (ix2 p k) * Wl (ix2 k q))
      = ∑ k : Fin K, Ideal.div (s (ix2 p k)) (col dc p) * Wl (ix2 k q) :=
    Finset.sum_congr rfl fun k _ => by
      rw [truncf_apply, divf_apply, Cert.Attn.Column.broadcastTo_a1_ab_apply dc hc p k]; rfl
  rw [e1]
  rfl

/-! ## The host's spelling -/

/-- A vector made a column and spread along the rows, read at (p, k), is its entry p. -/
theorem bcast_col_two {N K : ℕ} (h1 : (⟨1, ![N]⟩ : Shape).BroadcastsInDim ⟨2, ![N, 1]⟩ ![0])
    (h2 : (⟨2, ![N, 1]⟩ : Shape).BroadcastsInDim ⟨2, ![N, K]⟩ ![0, 1]) (y : (⟨1, ![N]⟩ : Shape).Idx → EReal) (p : Fin N) (k : Fin K) :
    broadcastInDim (⟨2, ![N, K]⟩ : Shape) ![0, 1] h2 (broadcastInDim (⟨2, ![N, 1]⟩ : Shape) ![0] h1 y) (ix2 p k) = y (ix1 p) := by
  refine (broadcastInDim_apply ![0, 1] h2 _ (ix2 p k) (ix2 p (0 : Fin 1)) fun a => ?_).trans
    (broadcastInDim_apply ![0] h1 y (ix2 p (0 : Fin 1)) (ix1 p) fun a => ?_)
  · match a with
    | ⟨0, _⟩ =>
      show p.val = if N = 1 then 0 else p.val
      split
      · rename_i h; have := p.isLt; omega
      · rfl
    | ⟨1, _⟩ => simp
  · match a with
    | ⟨0, _⟩ =>
      show p.val = if N = 1 then 0 else p.val
      split
      · rename_i h; have := p.isLt; omega
      · rfl

/-- The reference's arithmetic on the whole arrays: quotient by the spread counts, the first product, the bias,
    the second product, the floor at zero. The three terms of the sum stand in another order than the kernel's. -/
theorem host_dense {N K H : ℕ} (dd : DotDims ⟨2, ![N, K]⟩ ⟨2, ![K, H]⟩ ⟨2, ![N, H]⟩) (hdd : dd = DotDims.plain N K H)
    (h0 : (⟨0, ![]⟩ : Shape).BroadcastsInDim ⟨2, ![N, H]⟩ ![])
    (c1 : (⟨1, ![N]⟩ : Shape).BroadcastsInDim ⟨2, ![N, 1]⟩ ![0])
    (c2 : (⟨2, ![N, 1]⟩ : Shape).BroadcastsInDim ⟨2, ![N, K]⟩ ![0, 1])
    (h1 : (⟨1, ![H]⟩ : Shape).BroadcastsInDim ⟨2, ![1, H]⟩ ![1])
    (h2 : (⟨2, ![1, H]⟩ : Shape).BroadcastsInDim ⟨2, ![N, H]⟩ ![0, 1])
    (s x : FVec Ideal ⟨2, ![N, K]⟩ .f32) (dv : FVec Ideal ⟨1, ![N]⟩ .f32) (Wl Wr : FVec Ideal ⟨2, ![K, H]⟩ .f32)
    (b : FVec Ideal ⟨1, ![H]⟩ .f32) :
    maximumf (addf (addf (Host.dotGeneral dd none
          (Host.divf s (broadcastInDim (⟨2, ![N, K]⟩ : Shape) ![0, 1] c2 (broadcastInDim (⟨2, ![N, 1]⟩ : Shape) ![0] c1 dv))) Wl)
          (broadcastInDim (⟨2, ![N, H]⟩ : Shape) ![0, 1] h2 (broadcastInDim (⟨2, ![1, H]⟩ : Shape) ![1] h1 b)))
          (Host.dotGeneral dd none x Wr))
        (broadcastInDim (⟨2, ![N, H]⟩ : Shape) ![] h0 (constant (⟨0, ![]⟩ : Shape) .f32 0x00000000#32))
      = dense s x (vec dv) Wl Wr (vec b) := by
  subst hdd
  rw [host_relu]
  funext i
  obtain ⟨p, q, rfl⟩ : ∃ (p : Fin N) (q : Fin H), i = ix2 p q := ⟨i 0, i 1, eq_ix2 i⟩
  have hm (a : FVec Ideal ⟨2, ![N, K]⟩ .f32) (W : FVec Ideal ⟨2, ![K, H]⟩ .f32) :
      Host.dotGeneral (DotDims.plain N K H) none a W (ix2 p q) = ∑ k : Fin K, a (ix2 p k) * W (ix2 k q) :=
    (Ideal.dotGeneral_apply (DotDims.plain N K H) none .single a W (ix2 p q)).trans (plain_sum a W (ix2 p q))
  show max ((addf (addf _ _) _ : FVec Ideal ⟨2, ![N, H]⟩ .f32) (ix2 p q)) zero = _
  rw [addf_apply, addf_apply, hm, hm, bcast_two h1 h2 b p q]
  have e1 : (∑ k : Fin K, Host.divf s (broadcastInDim (⟨2, ![N, K]⟩ : Shape) ![0, 1] c2 (broadcastInDim (⟨2, ![N, 1]⟩ : Shape) ![0] c1 dv)) (ix2 p k) * Wl (ix2 k q))
      = ∑ k : Fin K, Ideal.div (s (ix2 p k)) (vec dv p) * Wl (ix2 k q) :=
    Finset.sum_congr rfl fun k _ => by
      show Ideal.div (s (ix2 p k)) (broadcastInDim (⟨2, ![N, K]⟩ : Shape) ![0, 1] c2 (broadcastInDim (⟨2, ![N, 1]⟩ : Shape) ![0] c1 dv) (ix2 p k)) * _ = _
      rw [bcast_col_two c1 c2 dv p k]; rfl
  rw [e1]
  show max (((∑ k : Fin K, Ideal.div (s (ix2 p k)) (vec dv p) * Wl (ix2 k q)) + b (ix1 q)) + ∑ k : Fin K, x (ix2 p k) * Wr (ix2 k q)) zero
     = max (((∑ k : Fin K, Ideal.div (s (ix2 p k)) (vec dv p) * Wl (ix2 k q)) + ∑ k : Fin K, x (ix2 p k) * Wr (ix2 k q)) + b (ix1 q)) zero
  rw [add_right_comm]

end Cert.Sage

end
-- ==== Proof.Region0.lean ====
/-
  The first layer's launch, read as a value. Entered with its six operand arrays at some contents, the launch
  leaves in its result array the layer function `Cert.Sage.dense` of those arrays: the grid's ten points each
  write back one block of 5000 rows; the body at a point computes the layer on the block's rows of the summed
  features, the node features and the count column, and on the whole weight matrices and bias row; the layer
  reads only the row it is asked for, so block `t`'s rows of the block-wise result are rows
  `5000·t … 5000·t + 4999` of the layer on the whole arrays; and the ten blocks tile the 50000 rows.
-/
import proofs.«421002_j14946486190200_3_alg».proof.Proof.Gen.KernelIdeal.Frame
import proofs.«421002_j14946486190200_3_alg».proof.Proof.SageDense
import Idealize.ShloMosaic.Lib.Pipeline.Value
import Idealize.ShloMosaic.Lib.ValueIdx

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Sage Cert.Mlp

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer on the loaded blocks: a cast to the same shape is the identity, and the
    rest is the vector spelling of the layer. -/
theorem pay_eq (x0 : Vec Ideal S5000x64 .f32) (x2 : Vec Ideal S5000x1 .f32) (x7 : Vec Ideal S5000x64 .f32)
    (v9 v12 : Vec Ideal S64x64 .bf16) (v16 : Vec Ideal S1x64 .f32) :
    k0_pay1 x0 x2 x7 v9 v12 v16 = dense (N := 5000) (K := 64) (H := 64) x0 x7 (col x2) v9 v12 (row v16) := by
  unfold k0_pay1
  simp only [shapeCast_self]
  exact vec_dense dot_S5000x64_S64x64_S5000x64_1_0_0_1_n_n rfl broadcasts_S5000x1_S5000x64 broadcasts_S1x64_S5000x64
    bitsLt_bf16_f32 x0 x7 x2 v9 v12 v16

/-- The printed index maps, decided over the grid: the three row-blocked inputs move with the output along the
    rows, the weights and the bias stay at block (0, 0), and the output's block index along the rows is the point. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A window whose one block is its whole array hands the body that array. -/
theorem blk3 (c : Dev nD) (t : Fin cfg0.N) : iblk0 V c 3 t = V c main_v5 := by
  obtain ⟨-, -, -, -, -, -, e0, e1, -⟩ := idx_facts t
  funext y
  show V c main_v5 (((cfg0.win 3).blk t).view.emb y) = V c main_v5 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk4 (c : Dev nD) (t : Fin cfg0.N) : iblk0 V c 4 t = V c main_v6 := by
  obtain ⟨-, -, -, -, -, -, -, -, e0, e1, -⟩ := idx_facts t
  funext y
  show V c main_v6 (((cfg0.win 4).blk t).view.emb y) = V c main_v6 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem blk5 (c : Dev nD) (t : Fin cfg0.N) : iblk0 V c 5 t = V c main_v26 := by
  obtain ⟨-, -, -, -, -, -, -, -, -, -, e0, e1, -⟩ := idx_facts t
  funext y
  show V c main_v26 (((cfg0.win 5).blk t).view.emb y) = V c main_v26 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The layer of the operand arrays as the launch finds them. -/
abbrev G (c : Dev nD) : (⟨2, ![50000, 64]⟩ : Shape).Idx → EReal :=
  dense (N := 50000) (K := 64) (H := 64) (V c main_v19) (V c main_arg0) (col (V c main_v25)) (V c main_v5) (V c main_v6) (row (V c main_v26))

/-- WHAT POINT `t` WRITES BACK is block `t` of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz]
  rw [pay_eq, blk3, blk4, blk5]
  obtain ⟨a0, a1, b0, b1, d0, d1, -, -, -, -, -, -, o0, o1⟩ := idx_facts t
  funext j
  obtain ⟨p, q, rfl⟩ : ∃ (p : Fin 5000) (q : Fin 64), j = ix2 p q := ⟨j 0, j 1, eq_ix2 j⟩
  have hi : ((cfg0.win 6).blk t).view.emb (ix2 p q) = ix2 ((((cfg0.win 6).blk t).view.emb (ix2 p q)) 0) q := by
    funext a; apply Fin.ext
    match a with
    | ⟨0, _⟩ => rfl
    | ⟨1, _⟩ => show win0_6.index t (1 : Fin 2) * 64 + 1 * q.val = q.val; omega
  show dense (N := 5000) (K := 64) (H := 64) (iblk0 V c 0 t) (iblk0 V c 1 t) (col (iblk0 V c 2 t)) (V c main_v5) (V c main_v6) (row (V c main_v26)) (ix2 p q)
    = G V c (((cfg0.win 6).blk t).view.emb (ix2 p q))
  rw [hi]
  refine dense_row _ _ _ _ _ _ _ _ _ p _ q (fun k => ?_) (fun k => ?_) ?_
  · show V c main_v19 (((cfg0.win 0).blk t).view.emb (ix2 p k)) = V c main_v19 (ix2 _ k)
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 64 + 1 * k.val = k.val; omega
  · show V c main_arg0 (((cfg0.win 1).blk t).view.emb (ix2 p k)) = V c main_arg0 (ix2 _ k)
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 64 + 1 * k.val = k.val; omega
  · show V c main_v25 (((cfg0.win 2).blk t).view.emb (ix2 p (0 : Fin 1))) = V c main_v25 (ix2 _ (0 : Fin 1))
    refine congrArg _ (funext fun a => Fin.ext ?_)
    match a with
    | ⟨0, _⟩ => show win0_2.index t (0 : Fin 2) * 5000 + 1 * p.val = win0_6.index t (0 : Fin 2) * 5000 + 1 * p.val; omega
    | ⟨1, _⟩ => show win0_2.index t (1 : Fin 2) * 1 + 1 * 0 = 0; omega

/-- An index of the result array is in point `t`'s block iff each coordinate is in the block's range on its axis. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v27).slice (win0_6.rect t)).set ↔ _
  rw [View.set_slice_whole, Rect.mem_set_unit]
  exact Iff.rfl

/-- Every row of the result lies in the block of the point that is its number divided by 5000. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  let t : Fin cfg0.N := ⟨(i 0).val / 5000, by rw [show cfg0.N = 10 from N_0]; omega⟩
  obtain ⟨-, -, -, -, -, -, -, -, -, -, -, -, o0, o1⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE RESULT ARRAY after the launch is the layer of the operand arrays as the launch found them. -/
theorem final (c : Dev nD) : (dat0 V c).arrAt 6 cfg0.N = G V c :=
  (dat0 V c).arrAt_eq_of_cover 6 (G V c) (fun t _ => flushed_eq V c t) cover

end Cert.KernelIdeal.Layer0

end
-- ==== Proof.Region1.lean ====
/-
  The second layer's launch, read as a value. Entered with its six operand arrays at some contents, the launch
  leaves in its result array the layer function `Cert.Sage.dense` of those arrays: the grid's ten points each
  write back one block of 5000 rows; the body at a point computes the layer on the block's rows of the summed
  features, the node features and the count column, and on the whole weight matrices and bias row; the layer
  reads only the row it is asked for, so block `t`'s rows of the block-wise result are rows
  `5000·t … 5000·t + 4999` of the layer on the whole arrays; and the ten blocks tile the 50000 rows.
-/
import proofs.«421002_j14946486190200_3_alg».proof.Proof.Gen.KernelIdeal.Frame
import proofs.«421002_j14946486190200_3_alg».proof.Proof.SageDense
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Sage Cert.Mlp

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer on the loaded blocks: a cast to the same shape is the identity, and the
    rest is the vector spelling of the layer. -/
theorem pay_eq (x0 : Vec Ideal S5000x64 .f32) (x2 : Vec Ideal S5000x1 .f32) (x7 : Vec Ideal S5000x64 .f32)
    (v9 v12 : Vec Ideal S64x64 .bf16) (v16 : Vec Ideal S1x64 .f32) :
    k1_pay1 x0 x2 x7 v9 v12 v16 = dense (N := 5000) (K := 64) (H := 64) x0 x7 (col x2) v9 v12 (row v16) := by
  unfold k1_pay1
  simp only [shapeCast_self]
  exact vec_dense dot_S5000x64_S64x64_S5000x64_1_0_0_1_n_n rfl broadcasts_S5000x1_S5000x64 broadcasts_S1x64_S5000x64
    bitsLt_bf16_f32 x0 x7 x2 v9 v12 v16

/-- The printed index maps, decided over the grid: the three row-blocked inputs move with the output along the
    rows, the weights and the bias stay at block (0, 0), and the output's block index along the rows is the point. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A window whose one block is its whole array hands the body that array. -/
theorem blk3 (c : Dev nD) (t : Fin cfg1.N) : iblk1 V c 3 t = V c main_v7 := by
  obtain ⟨-, -, -, -, -, -, e0, e1, -⟩ := idx_facts t
  funext y
  show V c main_v7 (((cfg1.win 3).blk t).view.emb y) = V c main_v7 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

theorem blk4 (c : Dev nD) (t : Fin cfg1.N) : iblk1 V c 4 t = V c main_v8 := by
  obtain ⟨-, -, -, -, -, -, -, -, e0, e1, -⟩ := idx_facts t
  funext y
  show V c main_v8 (((cfg1.win 4).blk t).view.emb y) = V c main_v8 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem blk5 (c : Dev nD) (t : Fin cfg1.N) : iblk1 V c 5 t = V c main_v45 := by
  obtain ⟨-, -, -, -, -, -, -, -, -, -, e0, e1, -⟩ := idx_facts t
  funext y
  show V c main_v45 (((cfg1.win 5).blk t).view.emb y) = V c main_v45 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- The layer of the operand arrays as the launch finds them. -/
abbrev G (c : Dev nD) : (⟨2, ![50000, 64]⟩ : Shape).Idx → EReal :=
  dense (N := 50000) (K := 64) (H := 64) (V c main_v38) (V c main_v27) (col (V c main_v44)) (V c main_v7) (V c main_v8) (row (V c main_v45))

/-- WHAT POINT `t` WRITES BACK is block `t` of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz]
  rw [pay_eq, blk3, blk4, blk5]
  obtain ⟨a0, a1, b0, b1, d0, d1, -, -, -, -, -, -, o0, o1⟩ := idx_facts t
  funext j
  obtain ⟨p, q, rfl⟩ : ∃ (p : Fin 5000) (q : Fin 64), j = ix2 p q := ⟨j 0, j 1, eq_ix2 j⟩
  have hi : ((cfg1.win 6).blk t).view.emb (ix2 p q) = ix2 ((((cfg1.win 6).blk t).view.emb (ix2 p q)) 0) q := by
    funext a; apply Fin.ext
    match a with
    | ⟨0, _⟩ => rfl
    | ⟨1, _⟩ => show win1_6.index t (1 : Fin 2) * 64 + 1 * q.val = q.val; omega
  show dense (N := 5000) (K := 64) (H := 64) (iblk1 V c 0 t) (iblk1 V c 1 t) (col (iblk1 V c 2 t)) (V c main_v7) (V c main_v8) (row (V c main_v45)) (ix2 p q)
    = G V c (((cfg1.win 6).blk t).view.emb (ix2 p q))
  rw [hi]
  refine dense_row _ _ _ _ _ _ _ _ _ p _ q (fun k => ?_) (fun k => ?_) ?_
  · show V c main_v38 (((cfg1.win 0).blk t).view.emb (ix2 p k)) = V c main_v38 (ix2 _ k)
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 64 + 1 * k.val = k.val; omega
  · show V c main_v27 (((cfg1.win 1).blk t).view.emb (ix2 p k)) = V c main_v27 (ix2 _ k)
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 64 + 1 * k.val = k.val; omega
  · show V c main_v44 (((cfg1.win 2).blk t).view.emb (ix2 p (0 : Fin 1))) = V c main_v44 (ix2 _ (0 : Fin 1))
    refine congrArg _ (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega

/-- An index of the result array is in point `t`'s block iff each coordinate is in the block's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v46).slice (win1_6.rect t)).set ↔ _
  rw [View.set_slice_whole, Rect.mem_set_unit]
  exact Iff.rfl

/-- Every row of the result lies in the block of the point that is its number divided by 5000. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨-, -, -, -, -, -, -, -, -, -, -, -, o0, o1⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE RESULT ARRAY after the launch is the layer of the operand arrays as the launch found them. -/
theorem final (c : Dev nD) : (dat1 V c).arrAt 6 cfg1.N = G V c :=
  (dat1 V c).arrAt_eq_of_cover 6 (G V c) (fun t _ => flushed_eq V c t) cover

end Cert.KernelIdeal.Layer1

end
-- ==== Proof.HostRead.lean ====
/-
  The kernel program's host operations, read. Before the first launch @main takes the neighbour sums and counts
  of the node features, narrows the first layer's weights (the identity on the extended reals) and reshapes the
  counts to a column and the bias to a row; between the launches it does the same with the first launch's result
  in place of the node features. The sum and count operations are, operation for operation, the reference's, so
  each array a launch is entered with is stated as the reference's own stage function of the arguments.
-/
import proofs.«421002_j14946486190200_3_alg».proof.Proof.Gen.KernelIdeal.Frame
import proofs.«421002_j14946486190200_3_alg».proof.Proof.Gen.ReferenceIdeal.Read
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg)

/-! ## Before the first launch -/

/-- The source indices' row, as the reference reads it. -/
theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  unfold val_main_v1 val_main_v0
  rfl

/-- The destination indices' row. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  unfold val_main_v3 val_main_v2
  rfl

/-- One per edge. -/
theorem W1_v4 (c : Dev nD) : W1 m ρ c (Proc.devRef .tc main_v4) = val_main_v15 (F := Ideal) := by
  show StableHlo.after hostOps0 (W0 m ρ c) (Proc.devRef .tc main_v4) = _
  after_results_simp
  unfold val_main_v15 val_main_cst_1
  rfl

/-- The first launch's neighbour sums are the reference's. -/
theorem V1_v19 (c : Dev nD) : V1 m ρ c main_v19
    = val_main_v14 (F := Ideal) (m ((c : Thread nD τ).loc main_arg0)) (m ((c : Thread nD τ).loc main_arg1)) := by
  show StableHlo.after hostOps0 (W0 m ρ c) (Proc.devRef .tc main_v19) = _
  after_results_simp
  unfold val_main_v14 val_main_v13 val_main_v12 val_main_v11 val_main_cst val_main_v10 val_main_v9 val_main_v8 val_main_v7
    val_main_v6 val_main_c_0 val_main_v5 val_main_v4 val_main_c val_main_v3 val_main_v2 val_main_v1 val_main_v0
  rfl

/-- The first launch's count column is the reference's counts, reshaped. -/
theorem V1_v25 (c : Dev nD) : V1 m ρ c main_v25
    = shapeCast S50000x1 (val_main_v20 (F := Ideal) (m ((c : Thread nD τ).loc main_arg1))) shapeCasts_S50000_S50000x1 := by
  show StableHlo.after hostOps0 (W0 m ρ c) (Proc.devRef .tc main_v25) = _
  after_results_simp
  unfold val_main_v20 val_main_v19 val_main_cst_3 val_main_v18 val_main_v17 val_main_v16 val_main_cst_2 val_main_v15 val_main_cst_1
    val_main_v3 val_main_v2
  rfl

theorem V1_arg0 (c : Dev nD) : V1 m ρ c main_arg0 = m ((c : Thread nD τ).loc main_arg0) := by
  show StableHlo.after hostOps0 (W0 m ρ c) (Proc.devRef .tc main_arg0) = _
  after_results_simp

/-- Narrowing a weight matrix's format is the identity on the extended reals. -/
theorem V1_v5 (c : Dev nD) : V1 m ρ c main_v5 = m ((c : Thread nD τ).loc main_arg2) := by
  show StableHlo.after hostOps0 (W0 m ρ c) (Proc.devRef .tc main_v5) = _
  after_results_simp
  rfl

theorem V1_v6 (c : Dev nD) : V1 m ρ c main_v6 = m ((c : Thread nD τ).loc main_arg4) := by
  show StableHlo.after hostOps0 (W0 m ρ c) (Proc.devRef .tc main_v6) = _
  after_results_simp
  rfl

theorem W1_v7 (c : Dev nD) : W1 m ρ c (Proc.devRef .tc main_v7) = m ((c : Thread nD τ).loc main_arg5) := by
  show StableHlo.after hostOps0 (W0 m ρ c) (Proc.devRef .tc main_v7) = _
  after_results_simp
  rfl

theorem W1_v8 (c : Dev nD) : W1 m ρ c (Proc.devRef .tc main_v8) = m ((c : Thread nD τ).loc main_arg7) := by
  show StableHlo.after hostOps0 (W0 m ρ c) (Proc.devRef .tc main_v8) = _
  after_results_simp
  rfl

theorem W1_arg6 (c : Dev nD) : W1 m ρ c (Proc.devRef .tc main_arg6) = m ((c : Thread nD τ).loc main_arg6) := by
  show StableHlo.after hostOps0 (W0 m ρ c) (Proc.devRef .tc main_arg6) = _
  after_results_simp

/-- The first launch's bias row is the bias, reshaped. -/
theorem V1_v26 (c : Dev nD) : V1 m ρ c main_v26 = shapeCast S1x64 (m ((c : Thread nD τ).loc main_arg3)) shapeCasts_S64_S1x64 := by
  show StableHlo.after hostOps0 (W0 m ρ c) (Proc.devRef .tc main_v26) = _
  after_results_simp
  rfl

/-! ## Between the launches: the first launch writes its result array only -/

theorem W2_v1 (c : Dev nD) : W2 m ρ c (Proc.devRef .tc main_v1) = val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)
theorem W2_v4 (c : Dev nD) : W2 m ρ c (Proc.devRef .tc main_v4) = val_main_v15 (F := Ideal) :=
  (W2_of_ne m ρ c main_v4 (by decide)).trans (W1_v4 m ρ c)
theorem W2_v7 (c : Dev nD) : W2 m ρ c (Proc.devRef .tc main_v7) = m ((c : Thread nD τ).loc main_arg5) :=
  (W2_of_ne m ρ c main_v7 (by decide)).trans (W1_v7 m ρ c)
theorem W2_v8 (c : Dev nD) : W2 m ρ c (Proc.devRef .tc main_v8) = m ((c : Thread nD τ).loc main_arg7) :=
  (W2_of_ne m ρ c main_v8 (by decide)).trans (W1_v8 m ρ c)
theorem W2_arg6 (c : Dev nD) : W2 m ρ c (Proc.devRef .tc main_arg6) = m ((c : Thread nD τ).loc main_arg6) :=
  (W2_of_ne m ρ c main_arg6 (by decide)).trans (W1_arg6 m ρ c)

/-- The second launch's neighbour sums are the reference's sum operations on the first launch's result. -/
theorem V3_v38 (c : Dev nD) : V3 m ρ c main_v38
    = val_main_v14 (F := Ideal) (W2 m ρ c (Proc.devRef .tc main_v27)) (m ((c : Thread nD τ).loc main_arg1)) := by
  show StableHlo.after hostOps1 (W2 m ρ c) (Proc.devRef .tc main_v38) = _
  after_results_simp
  rw [W2_v1, W2_v3]
  generalize W2 m ρ c (Proc.devRef .tc main_v27) = X
  unfold val_main_v14 val_main_v13 val_main_v12 val_main_v11 val_main_cst val_main_v10 val_main_v9 val_main_v8 val_main_v7
    val_main_v6 val_main_c_0 val_main_v5 val_main_v4 val_main_c
  rfl

/-- The second launch reads the first launch's result as its node features. -/
theorem V3_v27 (c : Dev nD) : V3 m ρ c main_v27 = W2 m ρ c (Proc.devRef .tc main_v27) := by
  show StableHlo.after hostOps1 (W2 m ρ c) (Proc.devRef .tc main_v27) = _
  after_results_simp

/-- The second launch's count column is again the reference's counts, reshaped. -/
theorem V3_v44 (c : Dev nD) : V3 m ρ c main_v44
    = shapeCast S50000x1 (val_main_v20 (F := Ideal) (m ((c : Thread nD τ).loc main_arg1))) shapeCasts_S50000_S50000x1 := by
  show StableHlo.after hostOps1 (W2 m ρ c) (Proc.devRef .tc main_v44) = _
  after_results_simp
  rw [W2_v3, W2_v4]
  unfold val_main_v20 val_main_v19 val_main_cst_3 val_main_v18 val_main_v17 val_main_v16 val_main_cst_2
  rfl

theorem V3_v7 (c : Dev nD) : V3 m ρ c main_v7 = m ((c : Thread nD τ).loc main_arg5) := by
  show StableHlo.after hostOps1 (W2 m ρ c) (Proc.devRef .tc main_v7) = _
  after_results_simp
  exact W2_v7 m ρ c

theorem V3_v8 (c : Dev nD) : V3 m ρ c main_v8 = m ((c : Thread nD τ).loc main_arg7) := by
  show StableHlo.after hostOps1 (W2 m ρ c) (Proc.devRef .tc main_v8) = _
  after_results_simp
  exact W2_v8 m ρ c

/-- The second launch's bias row is the second bias, reshaped. -/
theorem V3_v45 (c : Dev nD) : V3 m ρ c main_v45 = shapeCast S1x64 (m ((c : Thread nD τ).loc main_arg6)) shapeCasts_S64_S1x64 := by
  show StableHlo.after hostOps1 (W2 m ρ c) (Proc.devRef .tc main_v45) = _
  after_results_simp
  rw [W2_arg6]
  rfl

end Cert.KernelIdeal.HostRead

end
-- ==== Proof.RefLayer.lean ====
/-
  The reference, layer by layer. Its first rectified stage is the layer function `Cert.Sage.dense` of the
  neighbour sums, the node features, the neighbour counts, the two weight matrices and the bias; its second is
  the same function of the sums and counts taken again over the first stage's result. The neighbour sums of the
  second layer are the first layer's sum operations applied to that result (the same gather by the wrapped source
  indices, the same scatter-add by the destination indices, the same self term), and the counts do not depend on
  the features at all, so they are the first layer's.
-/
import proofs.«421002_j14946486190200_3_alg».proof.Proof.Gen.ReferenceIdeal.Read
import proofs.«421002_j14946486190200_3_alg».proof.Proof.SageDense

noncomputable section

namespace Cert.ReferenceIdeal.Layer

open Cert.ReferenceIdeal Cert.ReferenceIdeal.Gen Cert.ReferenceIdeal.Read Idealize.ShloMosaic Idealize.ShloMosaic.TcCoe
open Idealize.ShloMosaic.ValueIdx Cert.Sage Cert.Mlp

/-- The first rectified stage is the layer of the first neighbour sums and counts. -/
theorem layer1 (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v30 (F := Ideal) x0 x1 x2 x3 x4
      = dense (N := 50000) (K := 64) (H := 64) (val_main_v14 (F := Ideal) x0 x1) x0 (vec (val_main_v20 (F := Ideal) x1)) x2 x4 (vec x3) := by
  unfold val_main_v30 val_main_v29 val_main_v28 val_main_v27 val_main_v26 val_main_v25 val_main_v24 val_main_v23 val_main_v22
    val_main_v21 val_main_call0_v0 val_main_call0_cst
  exact host_dense dot_S50000x64_S64x64_S50000x64_1_0_0_1_n_n rfl bcast_S_S50000x64 bcast_S50000_S50000x1_0
    bcast_S50000x1_S50000x64_0_1 bcast_S64_S1x64_1 bcast_S1x64_S50000x64_0_1 _ x0 _ x2 x4 x3

/-- The second layer's neighbour sums are the first layer's sum operations on the first stage's result. -/
theorem sums2 (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v41 (F := Ideal) x0 x1 x2 x3 x4 = val_main_v14 (F := Ideal) (val_main_v30 (F := Ideal) x0 x1 x2 x3 x4) x1 := by
  unfold val_main_v41 val_main_v40 val_main_v37
  generalize val_main_v30 (F := Ideal) x0 x1 x2 x3 x4 = X
  unfold val_main_v39 val_main_v38 val_main_cst_6 val_main_v36 val_main_v35 val_main_v34
    val_main_v33 val_main_c_5 val_main_v32 val_main_v31 val_main_c_4
    val_main_v14 val_main_v13 val_main_v12 val_main_v11 val_main_cst val_main_v10 val_main_v9 val_main_v8 val_main_v7
    val_main_v6 val_main_c_0 val_main_v5 val_main_v4 val_main_c
  rfl

/-- The second layer's counts are the first layer's. -/
theorem counts2 (x1 : (⟨S2x800000, .i32⟩ : BufTy).Contents (Elt Ideal)) :
    val_main_v47 (F := Ideal) x1 = val_main_v20 (F := Ideal) x1 := by
  unfold val_main_v47 val_main_v46 val_main_cst_9 val_main_v45 val_main_v44 val_main_v43 val_main_cst_8 val_main_v42 val_main_cst_7
    val_main_v20 val_main_v19 val_main_cst_3 val_main_v18 val_main_v17 val_main_v16 val_main_cst_2 val_main_v15 val_main_cst_1
  rfl

/-- The reference's result is the layer of the second neighbour sums, the first stage's result and the counts. -/
theorem layer2 (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v57 (F := Ideal) x0 x1 x2 x3 x4 x5 x6 x7
      = dense (N := 50000) (K := 64) (H := 64) (val_main_v14 (F := Ideal) (val_main_v30 (F := Ideal) x0 x1 x2 x3 x4) x1)
          (val_main_v30 (F := Ideal) x0 x1 x2 x3 x4) (vec (val_main_v20 (F := Ideal) x1)) x5 x7 (vec x6) := by
  rw [← sums2, ← counts2]
  unfold val_main_v57 val_main_v56 val_main_v55 val_main_v54 val_main_v53 val_main_v52 val_main_v51 val_main_v50 val_main_v49
    val_main_v48 val_main_call1_v0 val_main_call1_cst
  exact host_dense dot_S50000x64_S64x64_S50000x64_1_0_0_1_n_n rfl bcast_S_S50000x64 bcast_S50000_S50000x1_0
    bcast_S50000x1_S50000x64_0_1 bcast_S64_S1x64_1 bcast_S1x64_S50000x64_0_1 _ _ _ x5 x7 x6

end Cert.ReferenceIdeal.Layer

end
-- ==== Proof.KernelValue.lean ====
/-
  The kernel program's result, as the reference's own function of the arguments. The first launch is entered with
  the neighbour sums, the node features, the count column, the two narrowed weight matrices and the bias row, and
  leaves the layer of them in its result array: the reference's first rectified stage. The second launch is entered
  with the same operations applied to that array, and leaves the layer of them: the reference's result. A count
  column read back as a vector is the counts, a bias row read back is the bias, and narrowing a format changes no
  value on the extended reals.
-/
import proofs.«421002_j14946486190200_3_alg».proof.Proof.KernelRun
import proofs.«421002_j14946486190200_3_alg».proof.Proof.Region0
import proofs.«421002_j14946486190200_3_alg».proof.Proof.Region1
import proofs.«421002_j14946486190200_3_alg».proof.Proof.HostRead
import proofs.«421002_j14946486190200_3_alg».proof.Proof.RefLayer

set_option maxRecDepth 16384

noncomputable section

namespace Cert.KernelIdeal.Result

open Cert.KernelIdeal Cert.KernelIdeal.Gen Idealize.ShloMosaic Idealize.ShloMosaic.TcCoe Idealize.SL.Sem
open Cert.ReferenceIdeal.Read Cert.KernelIdeal.HostRead Cert.Sage Cert.Mlp

variable (m : (ℓ : Loc nD τ sig) → Buf (Elt Ideal) ℓ) (ρ : Dev nD → PrngReg)

/-- After the first launch its result array holds the reference's first rectified stage of the arguments. -/
theorem first (c : Dev nD) : W2 m ρ c (Proc.devRef .tc main_v27)
    = val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 6).trans ?_
  rw [Cert.KernelIdeal.Layer0.final (V1 m ρ) c]
  show dense (N := 50000) (K := 64) (H := 64) (V1 m ρ c main_v19) (V1 m ρ c main_arg0) (col (V1 m ρ c main_v25))
    (V1 m ρ c main_v5) (V1 m ρ c main_v6) (row (V1 m ρ c main_v26)) = _
  rw [V1_v19, V1_arg0, V1_v25, V1_v5, V1_v6, V1_v26, col_shapeCast, row_shapeCast, Cert.ReferenceIdeal.Layer.layer1]

/-- After the second launch its result array holds the reference's result of the arguments. -/
theorem second (c : Dev nD) : W4 m ρ c (Proc.devRef .tc main_v46)
    = val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 6).trans ?_
  rw [Cert.KernelIdeal.Layer1.final (V3 m ρ) c]
  show dense (N := 50000) (K := 64) (H := 64) (V3 m ρ c main_v38) (V3 m ρ c main_v27) (col (V3 m ρ c main_v44))
    (V3 m ρ c main_v7) (V3 m ρ c main_v8) (row (V3 m ρ c main_v45)) = _
  rw [V3_v38, V3_v27, V3_v44, V3_v7, V3_v8, V3_v45, first, col_shapeCast, row_shapeCast, Cert.ReferenceIdeal.Layer.layer2]

/-- The run re-posted: the result array at the reference's function of the launch contents of the arguments, the
    arguments unchanged. -/
theorem run : θ_run defs (onTc (τ := τ) (main (F := Ideal))) ⟨m, fun _ => 0, ρ⟩ (fun r => ∀ c : Dev nD,
      r.2.mem ((c.tc : Thread nD τ).loc main_v46)
        = val_main_v57 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (second m ρ c), (h c).2⟩) (Cert.KernelIdeal.GenRun.run m ρ)

end Cert.KernelIdeal.Result

end
-- ==== Proof.lean ====
/-
  Two layers of a mean-aggregating graph convolution (50000 nodes, 64 features, 800000 edges): the kernel program
  takes the neighbour sums and counts on the host and fuses, per layer, the mean, both matrix products, the bias and
  the rectifier in one launch over ten blocks of 5000 rows; the reference does the same arithmetic on whole arrays.
  On the extended reals the two agree entry by entry: a launch's result is the layer function of the arrays it is
  entered with (each block computes the layer on its own rows, and the layer reads only the row it is asked for);
  the kernel's sum (mean·Wl + x·Wr) + b and the reference's (mean·Wl + b) + x·Wr differ only in the order of their
  terms; narrowing the weights' format is the identity; and the host operations that take the sums and counts are the
  same operations in both programs, so the second layer is entered with equal arrays in both. No finiteness of the
  inputs is used. The frames are the generated ones; nothing was rewritten when the program was idealized, so the
  idealized kernel is the kernel's own text.
-/
import proofs.«421002_j14946486190200_3_alg».proof.Defs
import proofs.«421002_j14946486190200_3_alg».proof.Proof.Gen.Kernel
import proofs.«421002_j14946486190200_3_alg».proof.Proof.Gen.Kernel.Skeleton
import proofs.«421002_j14946486190200_3_alg».proof.Proof.Gen.Kernel.Launch
import proofs.«421002_j14946486190200_3_alg».proof.Proof.Gen.Kernel.Points
import proofs.«421002_j14946486190200_3_alg».proof.Proof.Gen.Kernel.Frame
import proofs.«421002_j14946486190200_3_alg».proof.Proof.Gen.KernelIdeal
import proofs.«421002_j14946486190200_3_alg».proof.Proof.Gen.KernelIdeal.Skeleton
import proofs.«421002_j14946486190200_3_alg».proof.Proof.Gen.KernelIdeal.Launch
import proofs.«421002_j14946486190200_3_alg».proof.Proof.Gen.KernelIdeal.Points
import proofs.«421002_j14946486190200_3_alg».proof.Proof.Gen.KernelIdeal.Frame
import proofs.«421002_j14946486190200_3_alg».proof.Proof.Gen.ReferenceIdeal
import proofs.«421002_j14946486190200_3_alg».proof.Proof.Gen.Pre_finite_inputs
import proofs.«421002_j14946486190200_3_alg».proof.Proof.Gen.ReferenceIdeal.Run
import proofs.«421002_j14946486190200_3_alg».proof.Proof.Gen.ReferenceIdeal.Read
import proofs.«421002_j14946486190200_3_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the reference's function
    of the arguments: the kernel's run is posted at it, and the reference's run is it by definition. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v57_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
